-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x4096 : Shape := ⟨3, ![1, 64, 4096]⟩
abbrev S8192x4096 : Shape := ⟨2, ![8192, 4096]⟩
abbrev S8192x16 : Shape := ⟨2, ![8192, 16]⟩
abbrev S_ : Shape := ⟨0, ![]⟩

class Facts : Prop where
  bcast_S_S1x64x4096 : S_.BroadcastsInDim S1x64x4096 (![] : Fin 0 → Fin S1x64x4096.rank)
  reducesTo_S1x64x4096_S_d0_1_2 : S1x64x4096.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S1x64x4096 .f32) (main_arg1 : IVec S8192x4096 32) (main_arg2 : FVec F S8192x16 .f32) (main_arg3 : FVec F S8192x16 .f32) : IVec S_ 1 :=
  let main_v0 : FVec F S1x64x4096 .f32 := Host.absf main_arg0
  let main_cst : FVec F S_ .f32 := constant S_ .f32 0x7F800000#32
  let main_v1 : FVec F S1x64x4096 .f32 := broadcastInDim S1x64x4096 ![] bcast_S_S1x64x4096 main_cst
  let main_v2 : IVec S1x64x4096 1 := cmpf .olt main_v0 main_v1
  let main_c : IVec S_ 1 := constantI S_ 1 1#1
  let main_v3 : IVec S_ 1 := (fun x v => Host.reduce IntOp.andi x v reducesTo_S1x64x4096_S_d0_1_2 h_S_) main_v2 main_c
  let main_v4 : FVec F S8192x16 .f32 := Host.absf main_arg2
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S1x64x4096 : Shape := ⟨3, ![1, 64, 4096]⟩
abbrev S8192x4096 : Shape := ⟨2, ![8192, 4096]⟩
abbrev S8192x16 : Shape := ⟨2, ![8192, 16]⟩
abbrev S64x4096 : Shape := ⟨2, ![64, 4096]⟩
abbrev S16x8192 : Shape := ⟨2, ![16, 8192]⟩
abbrev S64x8192 : Shape := ⟨2, ![64, 8192]⟩
abbrev S1024x4096 : Shape := ⟨2, ![1024, 4096]⟩
abbrev S16x1024 : Shape := ⟨2, ![16, 1024]⟩
abbrev S64x1024 : Shape := ⟨2, ![64, 1024]⟩
abbrev S64x256 : Shape := ⟨2, ![64, 256]⟩
abbrev S1024x256 : Shape := ⟨2, ![1024, 256]⟩
abbrev S1x1024 : Shape := ⟨2, ![1, 1024]⟩
abbrev S64 : Shape := ⟨1, ![64]⟩
abbrev S64x1 : Shape := ⟨2, ![64, 1]⟩
abbrev S1x64x8192 : Shape := ⟨3, ![1, 64, 8192]⟩

abbrev nBuf : Space → Nat
  | .hbm => 10
  | .vmem => 9
  | .smem => 0
  | _ => 0

abbrev bufTy : (tb : Table) → Fin (tcTables nBuf tb) → BufTy
  | .hbm, ⟨0, _⟩ => ⟨S1x64x4096, .f32⟩
  | .hbm, ⟨1, _⟩ => ⟨S8192x4096, .i32⟩
  | .hbm, ⟨2, _⟩ => ⟨S8192x16, .f32⟩
  | .hbm, ⟨3, _⟩ => ⟨S8192x16, .f32⟩
  | .hbm, ⟨4, _⟩ => ⟨S64x4096, .f32⟩
  | .hbm, ⟨5, _⟩ => ⟨S64x4096, .bf16⟩
  | .hbm, ⟨6, _⟩ => ⟨S16x8192, .f32⟩
  | .hbm, ⟨7, _⟩ => ⟨S16x8192, .f32⟩
  | .hbm, ⟨8, _⟩ => ⟨S64x8192, .f32⟩
  | .hbm, ⟨9, _⟩ => ⟨S1x64x8192, .f32⟩
  | .local _ .vmem, ⟨0, _⟩ => ⟨S64x4096, .bf16⟩
  | .local _ .vmem, ⟨1, _⟩ => ⟨S1024x4096, .i32⟩
  | .local _ .vmem, ⟨2, _⟩ => ⟨S1024x4096, .i32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S64x1024, .f32⟩
  | .local _ .vmem, ⟨8, _⟩ => ⟨S64x1024, .f32⟩
  | _, _ => ⟨S1x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x64x4096_S64x4096 : S1x64x4096.ShapeCasts S64x4096
  bitsLt_bf16_f32 : FTy.bits .bf16 < FTy.bits .f32
  transposes_S8192x16_S16x8192_1_0 : S8192x16.Transposes [1, 0] S16x8192
  inb_S64x4096_S64x256_0_0 : ∀ a, (![0, 0] : Fin 2 → Nat) a + S64x256.size a ≤ S64x4096.size a
  h_S64x256 : 0 < S64x256.numel
  shapeCasts_S64x256_S64x256 : S64x256.ShapeCasts S64x256
  inb_S1024x4096_S1024x256_0_0 : ∀ a, (![0, 0] : Fin 2 → Nat) a + S1024x256.size a ≤ S1024x4096.size a
  h_S1024x256 : 0 < S1024x256.numel
  inb_S16x1024_S1x1024_0_0 : ∀ a, (![0, 0] : Fin 2 → Nat) a + S1x1024.size a ≤ S16x1024.size a
  h_S1x1024 : 0 < S1x1024.numel
  shapeCasts_S1x1024_S1x1024 : S1x1024.ShapeCasts S1x1024
  reduces_S64x256_S64 : S64x256.Reduces [1] S64
  shapeCasts_S64_S64x1 : S64.ShapeCasts S64x1
  broadcasts_S1x1024_S64x1024 : S1x1024.Broadcasts S64x1024
  broadcasts_S64x1_S64x1024 : S64x1.Broadcasts S64x1024
  inb_S64x4096_S64x256_0_256 : ∀ a, (![0, 256] : Fin 2 → Nat) a + S64x256.size a ≤ S64x4096.size a
  inb_S1024x4096_S1024x256_0_256 : ∀ a, (![0, 256] : Fin 2 → Nat) a + S1024x256.size a ≤ S1024x4096.size a
  inb_S16x1024_S1x1024_1_0 : ∀ a, (![1, 0] : Fin 2 → Nat) a + S1x1024.size a ≤ S16x1024.size a
  inb_S64x4096_S64x256_0_512 : ∀ a, (![0, 512] : Fin 2 → Nat) a + S64x256.size a ≤ S64x4096.size a
  inb_S1024x4096_S1024x256_0_512 : ∀ a, (![0, 512] : Fin 2 → Nat) a + S1024x256.size a ≤ S1024x4096.size a
  inb_S16x1024_S1x1024_2_0 : ∀ a, (![2, 0] : Fin 2 → Nat) a + S1x1024.size a ≤ S16x1024.size a
  inb_S64x4096_S64x256_0_768 : ∀ a, (![0, 768] : Fin 2 → Nat) a + S64x256.size a ≤ S64x4096.size a
  inb_S1024x4096_S1024x256_0_768 : ∀ a, (![0, 768] : Fin 2 → Nat) a + S1024x256.size a ≤ S1024x4096.size a
  inb_S16x1024_S1x1024_3_0 : ∀ a, (![3, 0] : Fin 2 → Nat) a + S1x1024.size a ≤ S16x1024.size a
  inb_S64x4096_S64x256_0_1024 : ∀ a, (![0, 1024] : Fin 2 → Nat) a + S64x256.size a ≤ S64x4096.size a
  inb_S1024x4096_S1024x256_0_1024 : ∀ a, (![0, 1024] : Fin 2 → Nat) a + S1024x256.size a ≤ S1024x4096.size a
  inb_S16x1024_S1x1024_4_0 : ∀ a, (![4, 0] : Fin 2 → Nat) a + S1x1024.size a ≤ S16x1024.size a
  inb_S64x4096_S64x256_0_1280 : ∀ a, (![0, 1280] : Fin 2 → Nat) a + S64x256.size a ≤ S64x4096.size a
  inb_S1024x4096_S1024x256_0_1280 : ∀ a, (![0, 1280] : Fin 2 → Nat) a + S1024x256.size a ≤ S1024x4096.size a
  inb_S16x1024_S1x1024_5_0 : ∀ a, (![5, 0] : Fin 2 → Nat) a + S1x1024.size a ≤ S16x1024.size a
  inb_S64x4096_S64x256_0_1536 : ∀ a, (![0, 1536] : Fin 2 → Nat) a + S64x256.size a ≤ S64x4096.size a
  inb_S1024x4096_S1024x256_0_1536 : ∀ a, (![0, 1536] : Fin 2 → Nat) a + S1024x256.size a ≤ S1024x4096.size a
  inb_S16x1024_S1x1024_6_0 : ∀ a, (![6, 0] : Fin 2 → Nat) a + S1x1024.size a ≤ S16x1024.size a
  inb_S64x4096_S64x256_0_1792 : ∀ a, (![0, 1792] : Fin 2 → Nat) a + S64x256.size a ≤ S64x4096.size a
  inb_S1024x4096_S1024x256_0_1792 : ∀ a, (![0, 1792] : Fin 2 → Nat) a + S1024x256.size a ≤ S1024x4096.size a
  inb_S16x1024_S1x1024_7_0 : ∀ a, (![7, 0] : Fin 2 → Nat) a + S1x1024.size a ≤ S16x1024.size a
  inb_S64x4096_S64x256_0_2048 : ∀ a, (![0, 2048] : Fin 2 → Nat) a + S64x256.size a ≤ S64x4096.size a
  inb_S1024x4096_S1024x256_0_2048 : ∀ a, (![0, 2048] : Fin 2 → Nat) a + S1024x256.size a ≤ S1024x4096.size a
  inb_S16x1024_S1x1024_8_0 : ∀ a, (![8, 0] : Fin 2 → Nat) a + S1x1024.size a ≤ S16x1024.size a
  inb_S64x4096_S64x256_0_2304 : ∀ a, (![0, 2304] : Fin 2 → Nat) a + S64x256.size a ≤ S64x4096.size a
  inb_S1024x4096_S1024x256_0_2304 : ∀ a, (![0, 2304] : Fin 2 → Nat) a + S1024x256.size a ≤ S1024x4096.size a
  inb_S16x1024_S1x1024_9_0 : ∀ a, (![9, 0] : Fin 2 → Nat) a + S1x1024.size a ≤ S16x1024.size a
  inb_S64x4096_S64x256_0_2560 : ∀ a, (![0, 2560] : Fin 2 → Nat) a + S64x256.size a ≤ S64x4096.size a
  inb_S1024x4096_S1024x256_0_2560 : ∀ a, (![0, 2560] : Fin 2 → Nat) a + S1024x256.size a ≤ S1024x4096.size a
  inb_S16x1024_S1x1024_10_0 : ∀ a, (![10, 0] : Fin 2 → Nat) a + S1x1024.size a ≤ S16x1024.size a
  inb_S64x4096_S64x256_0_2816 : ∀ a, (![0, 2816] : Fin 2 → Nat) a + S64x256.size a ≤ S64x4096.size a
  inb_S1024x4096_S1024x256_0_2816 : ∀ a, (![0, 2816] : Fin 2 → Nat) a + S1024x256.size a ≤ S1024x4096.size a
  inb_S16x1024_S1x1024_11_0 : ∀ a, (![11, 0] : Fin 2 → Nat) a + S1x1024.size a ≤ S16x1024.size a
  inb_S64x4096_S64x256_0_3072 : ∀ a, (![0, 3072] : Fin 2 → Nat) a + S64x256.size a ≤ S64x4096.size a
  inb_S1024x4096_S1024x256_0_3072 : ∀ a, (![0, 3072] : Fin 2 → Nat) a + S1024x256.size a ≤ S1024x4096.size a
  inb_S16x1024_S1x1024_12_0 : ∀ a, (![12, 0] : Fin 2 → Nat) a + S1x1024.size a ≤ S16x1024.size a
  inb_S64x4096_S64x256_0_3328 : ∀ a, (![0, 3328] : Fin 2 → Nat) a + S64x256.size a ≤ S64x4096.size a
  inb_S1024x4096_S1024x256_0_3328 : ∀ a, (![0, 3328] : Fin 2 → Nat) a + S1024x256.size a ≤ S1024x4096.size a
  inb_S16x1024_S1x1024_13_0 : ∀ a, (![13, 0] : Fin 2 → Nat) a + S1x1024.size a ≤ S16x1024.size a
  inb_S64x4096_S64x256_0_3584 : ∀ a, (![0, 3584] : Fin 2 → Nat) a + S64x256.size a ≤ S64x4096.size a
  inb_S1024x4096_S1024x256_0_3584 : ∀ a, (![0, 3584] : Fin 2 → Nat) a + S1024x256.size a ≤ S1024x4096.size a
  inb_S16x1024_S1x1024_14_0 : ∀ a, (![14, 0] : Fin 2 → Nat) a + S1x1024.size a ≤ S16x1024.size a
  inb_S64x4096_S64x256_0_3840 : ∀ a, (![0, 3840] : Fin 2 → Nat) a + S64x256.size a ≤ S64x4096.size a
  inb_S1024x4096_S1024x256_0_3840 : ∀ a, (![0, 3840] : Fin 2 → Nat) a + S1024x256.size a ≤ S1024x4096.size a
  inb_S16x1024_S1x1024_15_0 : ∀ a, (![15, 0] : Fin 2 → Nat) a + S1x1024.size a ≤ S16x1024.size a
  inb_S64x1024_S64x1024_0_0 : ∀ a, (![0, 0] : Fin 2 → Nat) a + S64x1024.size a ≤ S64x1024.size a
  h_S64x1024 : 0 < S64x1024.numel
  shapeCasts_S64x8192_S1x64x8192 : S64x8192.ShapeCasts S1x64x8192
  dot_S64x256_S1024x256_S64x1024_1_1_0_0_n_n_wf : DotDims.WF S64x256 S1024x256 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .i32 = 32 ∨ (Rect.block (s := S8192x4096) S1024x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x8192.size a
  hwx0_2 : ∀ i : grid0.Coords, EltTy.bits .f32 = 32 ∨ (Rect.block (s := S16x8192) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x8192.size a
  hwx0_3 : ∀ i : grid0.Coords, EltTy.bits .f32 = 32 ∨ (Rect.block (s := S16x8192) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x8192.size a
  hwx0_4 : ∀ i : grid0.Coords, EltTy.bits .f32 = 32 ∨ (Rect.block (s := S64x8192) S64x1024.size (cc0_transform_4 i) (hinb0_4 i)).WholeWords (EltTy.packing .f32)

variable [Facts₀]

def dot_S64x256_S1024x256_S64x1024_1_1_0_0_n_n : DotDims S64x256 S1024x256 S64x1024 where
  lhsContracting := [1]
  rhsContracting := [1]
  lhsNonContracting := [0]
  rhsNonContracting := [0]
  lhsBatch := []
  rhsBatch := []
  wf := dot_S64x256_S1024x256_S64x1024_1_1_0_0_n_n_wf

abbrev win0_0 : Pipeline.Window sig grid0 :=
  Pipeline.Window.ofSpec (Memref.whole main_v1) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x64x4096 : Shape := ⟨3, ![1, 64, 4096]⟩
abbrev S8192x4096 : Shape := ⟨2, ![8192, 4096]⟩
abbrev S8192x16 : Shape := ⟨2, ![8192, 16]⟩
abbrev S8192x16x256 : Shape := ⟨3, ![8192, 16, 256]⟩
abbrev S8192x16x1 : Shape := ⟨3, ![8192, 16, 1]⟩
abbrev S1x64x8192 : Shape := ⟨3, ![1, 64, 8192]⟩

abbrev nBuf : Space → Nat
  | .hbm => 14
  | .vmem => 0
  | .smem => 0
  | _ => 0

abbrev bufTy : (tb : Table) → Fin (tcTables nBuf tb) → BufTy
  | .hbm, ⟨0, _⟩ => ⟨S1x64x4096, .f32⟩
  | .hbm, ⟨1, _⟩ => ⟨S8192x4096, .i32⟩
  | .hbm, ⟨2, _⟩ => ⟨S8192x16, .f32⟩
  | .hbm, ⟨3, _⟩ => ⟨S8192x16, .f32⟩
  | .hbm, ⟨4, _⟩ => ⟨S8192x4096, .f32⟩
  | .hbm, ⟨5, _⟩ => ⟨S8192x16x256, .f32⟩
  | .hbm, ⟨6, _⟩ => ⟨S8192x16x1, .f32⟩
  | .hbm, ⟨7, _⟩ => ⟨S8192x16x256, .f32⟩
  | .hbm, ⟨8, _⟩ => ⟨S8192x16x256, .f32⟩
  | .hbm, ⟨9, _⟩ => ⟨S8192x16x1, .f32⟩
  | .hbm, ⟨10, _⟩ => ⟨S8192x16x256, .f32⟩
  | .hbm, ⟨11, _⟩ => ⟨S8192x16x256, .f32⟩
  | .hbm, ⟨12, _⟩ => ⟨S8192x4096, .f32⟩
  | .hbm, ⟨13, _⟩ => ⟨S1x64x8192, .f32⟩
  | _, _ => ⟨S1x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8192x4096_S8192x16x256 : S8192x4096.ShapeCasts S8192x16x256
  bcast_S8192x16_S8192x16x1_0_1 : S8192x16.BroadcastsInDim S8192x16x1 (![0, 1] : Fin 2 → Fin S8192x16x1.rank)
  bcast_S8192x16x1_S8192x16x256_0_1_2 : S8192x16x1.BroadcastsInDim S8192x16x256 (![0, 1, 2] : Fin 3 → Fin S8192x16x256.rank)
  shapeCasts_S8192x16x256_S8192x4096 : S8192x16x256.ShapeCasts S8192x4096
  dot_S1x64x4096_S8192x4096_S1x64x8192_2_1_01_0_n_n_wf : DotDims.WF S1x64x4096 S8192x4096 S1x64x8192 [2] [1] [0, 1] [0] [] []

variable [Facts₀]

def dot_S1x64x4096_S8192x4096_S1x64x8192_2_1_01_0_n_n : DotDims S1x64x4096 S8192x4096 S1x64x8192 where
  lhsContracting := [2]
  rhsContracting := [1]
  lhsNonContracting := [0, 1]
  rhsNonContracting := [0]
  lhsBatch := []
  rhsBatch := []
  wf := dot_S1x64x4096_S8192x4096_S1x64x8192_2_1_01_0_n_n_wf

class Facts : Prop extends Facts₀ where

variable [Facts]
-- ==== Proof.RealInputs.lean ====
/-
  Under the precondition every float input holds real numbers.

  The printed precondition is the conjunction of three tests, one per float input: every entry's absolute
  value is below +∞. On the extended reals |v| < +∞ excludes both infinities, so each entry is a real number.
-/
import proofs.«418939_j17540646437707_3_alg».proof.Proof.Gen.Pre_finite_inputs
import Idealize.ShloMosaic.PureOps.Ideal
import Idealize.ShloMosaic.Lib.ReduceAll
import Idealize.ShloMosaic.Lib.ValueIdx

noncomputable section

namespace Cert.Proof.RealInputs

open Idealize.ShloMosaic Cert.Pre_finite_inputs

/-- The single-precision pattern `0x7F800000` denotes +∞. -/
theorem posInf_eq_top : Ideal.ofBits .f32 0x7F800000#32 = (⊤ : EReal) := by
  simp [Ideal.ofBits, Ideal.ieee]

/-- On the extended reals `|v| < +∞` excludes both infinities: `v` is a real number. -/
theorem real_of_abs_lt_top (v : EReal) (h : Ideal.cmp .olt (max v (-v)) ⊤ = 1#1) : ∃ a : ℝ, v = (a : EReal) := by
  induction v using EReal.rec with
  | bot => simp [Ideal.cmp] at h
  | coe a => exact ⟨a, rfl⟩
  | top => simp [Ideal.cmp] at h

/-- One input's test: if the conjunction over all entries of `|x i| < +∞` is 1, every entry of `x` is a real number. -/
theorem reals_of_test {S : Shape} (x : FVec Ideal S .f32) (hb : S_.BroadcastsInDim S (![] : Fin 0 → Fin S.rank))
    {axes : List (Fin S.rank)} (hr : S.ReducesTo axes S_) (hu : 0 < S_.numel) (j : S_.Idx)
    (h : Host.reduce IntOp.andi (cmpf .olt (Host.absf x) (broadcastInDim S ![] hb (constant S_ .f32 0x7F800000#32)))
      (constantI S_ 1 1#1) hr hu j = 1#1) :
    ∀ i, ∃ a : ℝ, x i = (a : EReal) := by
  intro i
  haveI : Subsingleton S_.Idx := ⟨fun a b => funext fun d => d.elim0⟩
  have hi := Host.reduce_andi_all _ _ hr hu j h i
  have hi' : Ideal.cmp .olt (max (x i) (-(x i))) (Ideal.ofBits .f32 0x7F800000#32) = 1#1 := hi
  rw [posInf_eq_top] at hi'
  exact real_of_abs_lt_top (x i) hi'

/-- If the precondition's word is 1, each entry of the three float inputs is a real number. -/
theorem reals_of_pre [Cert.Pre_finite_inputs.Facts] (x0 : FVec Ideal S1x64x4096 .f32) (x1 : IVec S8192x4096 32)
    (x2 x3 : FVec Ideal S8192x16 .f32)
    (h : Cert.Pre_finite_inputs.fn (F := Ideal) x0 x1 x2 x3 = fun _ => 1#1) :
    (∀ i, ∃ a : ℝ, x0 i = (a : EReal)) ∧ (∀ i, ∃ a : ℝ, x2 i = (a : EReal)) ∧ (∀ i, ∃ a : ℝ, x3 i = (a : EReal)) := by
  have h0 := congrFun h ValueIdx.ix0
  dsimp only [Cert.Pre_finite_inputs.fn] at h0
  obtain ⟨h01, h3⟩ := IntOp.andi_eq_one.1 h0
  obtain ⟨h0', h2⟩ := IntOp.andi_eq_one.1 h01
  exact ⟨reals_of_test x0 _ _ _ _ h0', reals_of_test x2 _ _ _ _ h2, reals_of_test x3 _ _ _ _ h3⟩

end Cert.Proof.RealInputs

end
-- ==== Proof.GroupSum.lean ====
/-
  Regrouping a dot product by quantization group, on the extended reals.

  A row of 4096 = 16 · 256 columns is cut into 16 groups of 256 consecutive columns. With a per-group
  scale `r g` and offset `m g`, the dequantized dot product is
      ∑ i, x i * (q i * r (i / 256) + m (i / 256)),
  and the grouped form accumulates, group after group from zero,
      a ↦ (a + (∑ k, x (256 g + k) * q (256 g + k)) * r g) + (∑ k, x (256 g + k)) * m g.
  The two agree when every entry is a real number: on the reals multiplication distributes over the
  sums; on the extended reals it does not at the infinities, which is why the entries are asked to be real.

  The proof has three parts. (1) The inclusion of the reals in the extended reals commutes with finite
  sums, products of two reals and sums of two reals, so both sides are the image of a real number.
  (2) On the reals, the pairs (group, column in the group) are in bijection with the 4096 columns, so the
  sum over columns is a double sum; inside a group the scale and the offset are constants and come out of
  the inner sum. (3) Accumulating a list of terms from zero, left to right, gives the sum of the list, and
  the sixteen groups in their order are the list of all elements of `Fin 16`.
-/
import Mathlib.Data.EReal.Operations
import Mathlib.Algebra.BigOperators.Fin
import Mathlib.Algebra.BigOperators.Ring.Finset
import Mathlib.Algebra.BigOperators.Group.Finset.Sigma
import Mathlib.Tactic.Ring

noncomputable section

namespace Cert.Proof.GroupSum

/-- Column `k` of group `g`. -/
def col (g : Fin 16) (k : Fin 256) : Fin 4096 :=
  ⟨256 * g.val + k.val, by have := g.isLt; have := k.isLt; omega⟩

/-- The group a column lies in. -/
def grpOf (i : Fin 4096) : Fin 16 := ⟨i.val / 256, by have := i.isLt; omega⟩

/-- One group's contribution added to the running value `a`: the group's dot product `P` times the scale,
    then the group's plain sum `S` times the offset. -/
def step (P S r m a : EReal) : EReal := (a + P * r) + S * m

/-- The dot product of `x` and `q` over the columns of group `g`. -/
def dotG (x q : Fin 4096 → EReal) (g : Fin 16) : EReal := ∑ k : Fin 256, x (col g k) * q (col g k)

/-- The sum of `x` over the columns of group `g`. -/
def sumG (x : Fin 4096 → EReal) (g : Fin 16) : EReal := ∑ k : Fin 256, x (col g k)

/-- The sixteen groups in the order they are accumulated. -/
def groups : List (Fin 16) := [0, 1, 2, 3, 4, 5, 6, 7, 8, 9, 10, 11, 12, 13, 14, 15]

/-- The grouped form: the sixteen contributions accumulated from zero, left to right. -/
def groupedSum (x q : Fin 4096 → EReal) (r m : Fin 16 → EReal) : EReal :=
  groups.foldl (fun a g => step (dotG x q g) (sumG x g) (r g) (m g) a) 0

/-- The dequantized dot product: each column's code scaled and offset by its group's pair. -/
def dequantSum (x q : Fin 4096 → EReal) (r m : Fin 16 → EReal) : EReal :=
  ∑ i : Fin 4096, x i * (q i * r (grpOf i) + m (grpOf i))

/-! ### The inclusion of the reals commutes with finite sums -/

/-- The inclusion `ℝ → EReal` sends a finite sum of reals to the sum of the images. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Columns as pairs (group, place in the group) -/

/-- The place of a column inside its group. -/
def placeOf (i : Fin 4096) : Fin 256 := ⟨i.val % 256, Nat.mod_lt _ (by norm_num)⟩

theorem grpOf_col (g : Fin 16) (k : Fin 256) : grpOf (col g k) = g := by
  apply Fin.ext
  have := k.isLt
  simp only [grpOf, col]
  omega

theorem placeOf_col (g : Fin 16) (k : Fin 256) : placeOf (col g k) = k := by
  apply Fin.ext
  have := k.isLt
  simp only [placeOf, col]
  omega

theorem col_grpOf_placeOf (i : Fin 4096) : col (grpOf i) (placeOf i) = i := by
  apply Fin.ext
  simp only [grpOf, col, placeOf]
  omega

/-- The 16 · 256 pairs (group, place) are exactly the 4096 columns. -/
def colEquiv : Fin 16 × Fin 256 ≃ Fin 4096 where
  toFun p := col p.1 p.2
  invFun i := (grpOf i, placeOf i)
  left_inv p := by
    obtain ⟨g, k⟩ := p
    simp only [grpOf_col, placeOf_col]
  right_inv i := col_grpOf_placeOf i

/-- A sum over the columns is the sum over the groups of the sums over each group's columns. -/
theorem sum_cols {M : Type*} [AddCommMonoid M] (f : Fin 4096 → M) :
    ∑ i : Fin 4096, f i = ∑ g : Fin 16, ∑ k : Fin 256, f (col g k) := by
  rw [← colEquiv.sum_comp f, Fintype.sum_prod_type]
  rfl

/-! ### The identity on the reals -/

/-- On the reals: the dequantized dot product is the sum over the groups of
    (group dot product) · scale + (group sum) · offset. -/
theorem real_regroup (x q : Fin 4096 → ℝ) (r m : Fin 16 → ℝ) :
    ∑ i : Fin 4096, x i * (q i * r (grpOf i) + m (grpOf i)) =
      ∑ g : Fin 16, ((∑ k : Fin 256, x (col g k) * q (col g k)) * r g
        + (∑ k : Fin 256, x (col g k)) * m g) := by
  rw [sum_cols]
  refine Finset.sum_congr rfl (fun g _ => ?_)
  rw [Finset.sum_mul, Finset.sum_mul, ← Finset.sum_add_distrib]
  refine Finset.sum_congr rfl (fun k _ => ?_)
  rw [grpOf_col]
  ring

/-! ### Accumulating a list from the left is summing it -/

/-- Accumulating `a ↦ (a + P g * r g) + S g * m g` along a list adds the list's terms to the start value. -/
theorem foldl_real {α : Type*} (P S r m : α → ℝ) (l : List α) (a : ℝ) :
    l.foldl (fun a g => (a + P g * r g) + S g * m g) a
      = a + (l.map (fun g => P g * r g + S g * m g)).sum := by
  induction l generalizing a with
  | nil => simp
  | cons g l ih => rw [List.foldl_cons, ih, List.map_cons, List.sum_cons]; ring

/-- The accumulation of real entries on the extended reals is the image of the accumulation on the reals. -/
theorem foldl_coe {α : Type*} (P S r m : α → ℝ) (l : List α) (a : ℝ) :
    l.foldl (fun (a : EReal) g => step (P g : EReal) (S g : EReal) (r g : EReal) (m g : EReal) a) (a : EReal)
      = ((l.foldl (fun a g => (a + P g * r g) + S g * m g) a : ℝ) : EReal) := by
  induction l generalizing a with
  | nil => rfl
  | cons g l ih =>
    have h : step (P g : EReal) (S g : EReal) (r g : EReal) (m g : EReal) (a : EReal)
        = ((a + P g * r g + S g * m g : ℝ) : EReal) := by
      simp only [step, EReal.coe_add, EReal.coe_mul]
    rw [List.foldl_cons, List.foldl_cons, h, ih]

/-- The sixteen groups in their order are all the elements of `Fin 16` in order. -/
theorem groups_eq : groups = List.finRange 16 := by decide

/-- On real entries the grouped form is the dequantized dot product. -/
theorem groupedSum_eq_dequantSum (x q : Fin 4096 → EReal) (r m : Fin 16 → EReal)
    (hx : ∀ i, ∃ a : ℝ, x i = (a : EReal)) (hq : ∀ i, ∃ a : ℝ, q i = (a : EReal))
    (hr : ∀ g, ∃ a : ℝ, r g = (a : EReal)) (hm : ∀ g, ∃ a : ℝ, m g = (a : EReal)) :
    groupedSum x q r m = dequantSum x q r m := by
  choose x' hx' using hx
  choose q' hq' using hq
  choose r' hr' using hr
  choose m' hm' using hm
  obtain rfl : x = fun i => (x' i : EReal) := funext hx'
  obtain rfl : q = fun i => (q' i : EReal) := funext hq'
  obtain rfl : r = fun g => (r' g : EReal) := funext hr'
  obtain rfl : m = fun g => (m' g : EReal) := funext hm'
  -- the right side is the image of the real dequantized dot product
  have hR : dequantSum (fun i => (x' i : EReal)) (fun i => (q' i : EReal))
      (fun g => (r' g : EReal)) (fun g => (m' g : EReal))
      = ((∑ i : Fin 4096, x' i * (q' i * r' (grpOf i) + m' (grpOf i)) : ℝ) : EReal) := by
    rw [coe_finsetSum]
    simp only [dequantSum, EReal.coe_add, EReal.coe_mul]
  -- the left side is the image of the real accumulation
  have hL : groupedSum (fun i => (x' i : EReal)) (fun i => (q' i : EReal))
      (fun g => (r' g : EReal)) (fun g => (m' g : EReal))
      = ((groups.foldl (fun a g => (a + (∑ k : Fin 256, x' (col g k) * q' (col g k)) * r' g)
          + (∑ k : Fin 256, x' (col g k)) * m' g) 0 : ℝ) : EReal) := by
    rw [← foldl_coe (fun g => ∑ k : Fin 256, x' (col g k) * q' (col g k))
      (fun g => ∑ k : Fin 256, x' (col g k)) r' m' groups 0]
    simp only [groupedSum, dotG, sumG, coe_finsetSum, EReal.coe_mul, EReal.coe_zero]
  rw [hL, hR, foldl_real, zero_add, real_regroup, Fin.sum_univ_def, groups_eq]

end Cert.Proof.GroupSum

end
-- ==== Proof.RefValue.lean ====
/-
  The reference, entry by entry.

  The reference dequantizes the whole weight matrix — code (o, i) times the scale of row o and of the group i / 256,
  plus that group's offset — and contracts it with the activations over the 4096 columns. Reading its operations
  one at a time at an index, entry (0, b, o) of its result is the dequantized dot product (see GroupSum) of row b of
  the activations with row o of the codes, scales and offsets taken from row o of their tables.
-/
import proofs.«418939_j17540646437707_3_alg».proof.Proof.Gen.ReferenceIdeal.Read
import proofs.«418939_j17540646437707_3_alg».proof.Proof.GroupSum

noncomputable section

namespace Cert.ReferenceIdeal.RefValue

open Cert.ReferenceIdeal Cert.ReferenceIdeal.Gen Cert.ReferenceIdeal.Read Idealize.ShloMosaic Idealize.ShloMosaic.ValueIdx
open Cert.Proof.GroupSum

/-- Entry (0, b, o) of the result as a function of the four argument arrays. -/
def dequantAt (x0 : FVec Ideal S1x64x4096 .f32) (x1 : IVec S8192x4096 32) (x2 x3 : FVec Ideal S8192x16 .f32)
    (b : Fin 64) (o : Fin 8192) : EReal :=
  dequantSum (fun k => x0 (ix3 (0 : Fin 1) b k)) (fun k => (((x1 (ix2 o k)).toInt : ℝ) : EReal))
    (fun g => x2 (ix2 o g)) (fun g => x3 (ix2 o g))

/-- The whole result. -/
def dequant (x0 : FVec Ideal S1x64x4096 .f32) (x1 : IVec S8192x4096 32) (x2 x3 : FVec Ideal S8192x16 .f32) :
    FVec Ideal S1x64x8192 .f32 :=
  fun i => dequantAt x0 x1 x2 x3 ⟨(i 1).val, (i 1).isLt⟩ ⟨(i 2).val, (i 2).isLt⟩

/-- The reference's last stage is that function. -/
theorem result_eq (x0 : FVec Ideal S1x64x4096 .f32) (x1 : IVec S8192x4096 32) (x2 x3 : FVec Ideal S8192x16 .f32) :
    val_main_v9 (F := Ideal) x0 x1 x2 x3 = dequant x0 x1 x2 x3 := by
  funext i
  rw [val_main_v9_apply]
  unfold dequant dequantAt dequantSum
  refine Finset.sum_congr rfl fun k _ => ?_
  rw [val_main_v8_apply, val_main_v7_apply, val_main_v4_apply, val_main_v6_apply, val_main_v5_apply,
    val_main_v3_apply, val_main_v2_apply, val_main_v1_apply, val_main_v0_apply]
  have hi0 : (i 0).val < 1 := (i 0).isLt
  have hi2 : (i 2).val < 8192 := (i 2).isLt
  have hk : k.val < 4096 := k.isLt
  have e0 : lidx_main_v9 i k = ix3 (0 : Fin 1) (⟨(i 1).val, (i 1).isLt⟩ : Fin 64) k := funext fun a => Fin.ext (by
    match a with
    | ⟨0, _⟩ => show (i 0).val = 0; omega
    | ⟨1, _⟩ => rfl
    | ⟨2, _⟩ => rfl)
  have e1 : idx_main_v1 (idx_main_v8 (ridx_main_v9 i k)) = ix2 (⟨(i 2).val, (i 2).isLt⟩ : Fin 8192) k := funext fun a => Fin.ext (by
    match a with
    | ⟨0, _⟩ =>
      show ((((i 2).val * 4096 + k.val) / 4096 * 16 + ((i 2).val * 4096 + k.val) / 256 % 16) * 256 + ((i 2).val * 4096 + k.val) % 256) / 4096 = (i 2).val
      omega
    | ⟨1, _⟩ =>
      show ((((i 2).val * 4096 + k.val) / 4096 * 16 + ((i 2).val * 4096 + k.val) / 256 % 16) * 256 + ((i 2).val * 4096 + k.val) % 256) % 4096 = k.val
      omega)
  have e2 : idx_main_v2 (idx_main_v3 (idx_main_v8 (ridx_main_v9 i k))) = ix2 (⟨(i 2).val, (i 2).isLt⟩ : Fin 8192) (grpOf k) := funext fun a => Fin.ext (by
    match a with
    | ⟨0, _⟩ => show ((i 2).val * 4096 + k.val) / 4096 = (i 2).val; omega
    | ⟨1, _⟩ => show ((i 2).val * 4096 + k.val) / 256 % 16 = k.val / 256; omega)
  have e3 : idx_main_v5 (idx_main_v6 (idx_main_v8 (ridx_main_v9 i k))) = ix2 (⟨(i 2).val, (i 2).isLt⟩ : Fin 8192) (grpOf k) := funext fun a => Fin.ext (by
    match a with
    | ⟨0, _⟩ => show ((i 2).val * 4096 + k.val) / 4096 = (i 2).val; omega
    | ⟨1, _⟩ => show ((i 2).val * 4096 + k.val) / 256 % 16 = k.val / 256; omega)
  rw [e0, e1, e2, e3]
  rfl

end Cert.ReferenceIdeal.RefValue

end
-- ==== Proof.Group.lean ====
/-
  One quantization group of the kernel's body, read at an output entry.

  For one group the body loads a 64 × 256 piece of the activations, a 1024 × 256 piece of the integer
  codes and one row (1 × 1024) each of the scales and the offsets. At the instance where floats are extended
  reals, the matrix product of the two pieces, contracted over the 256 columns, is at entry (b, o) the plain
  sum  ∑ k, x (b, k) * (q (o, k) : ℝ)  (changes of float format are the identity and the integer code reads
  as the real number it is), and the lane sum of the activations' piece is  ∑ k, x (b, k).
-/
import proofs.«418939_j17540646437707_3_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Group

open Cert.KernelIdeal Cert.KernelIdeal.Gen Idealize.ShloMosaic Idealize.ShloMosaic.ValueIdx

/-! ## The product's operand indices, axis by axis -/

theorem lhs_axis0 (i : S64x1024.Idx) (q : dot_S64x256_S1024x256_S64x1024_1_1_0_0_n_n.contr.Idx) :
    (dot_S64x256_S1024x256_S64x1024_1_1_0_0_n_n.lhsIdx i q 0).val = (i 0).val := by
  unfold DotDims.lhsIdx
  rw [dif_neg (show ¬(0 : Fin S64x256.rank) ∈ dot_S64x256_S1024x256_S64x1024_1_1_0_0_n_n.lhsBatch by decide), dif_pos (show (0 : Fin S64x256.rank) ∈ dot_S64x256_S1024x256_S64x1024_1_1_0_0_n_n.lhsNonContracting by decide)]
  rfl
theorem lhs_axis1 (i : S64x1024.Idx) (q : dot_S64x256_S1024x256_S64x1024_1_1_0_0_n_n.contr.Idx) :
    (dot_S64x256_S1024x256_S64x1024_1_1_0_0_n_n.lhsIdx i q 1).val = (q ⟨0, by decide⟩).val :=
  dot_S64x256_S1024x256_S64x1024_1_1_0_0_n_n.lhsIdx_val_of_single rfl i q
theorem rhs_axis0 (i : S64x1024.Idx) (q : dot_S64x256_S1024x256_S64x1024_1_1_0_0_n_n.contr.Idx) :
    (dot_S64x256_S1024x256_S64x1024_1_1_0_0_n_n.rhsIdx i q 0).val = (i 1).val := by
  unfold DotDims.rhsIdx
  rw [dif_neg (show ¬(0 : Fin S1024x256.rank) ∈ dot_S64x256_S1024x256_S64x1024_1_1_0_0_n_n.rhsBatch by decide), dif_pos (show (0 : Fin S1024x256.rank) ∈ dot_S64x256_S1024x256_S64x1024_1_1_0_0_n_n.rhsNonContracting by decide)]
  rfl
theorem rhs_axis1 (i : S64x1024.Idx) (q : dot_S64x256_S1024x256_S64x1024_1_1_0_0_n_n.contr.Idx) :
    (dot_S64x256_S1024x256_S64x1024_1_1_0_0_n_n.rhsIdx i q 1).val = (q ⟨0, by decide⟩).val :=
  dot_S64x256_S1024x256_S64x1024_1_1_0_0_n_n.rhsIdx_val_of_single rfl i q

/-- The product of a 64 × 256 piece with the transpose of a 1024 × 256 piece, into a zero accumulator, at entry
    (b, o): the sum over the 256 columns of the two rows' products. -/
theorem matmul_at (xg : FVec Ideal S64x256 .bf16) (qf : FVec Ideal S1024x256 .bf16) (b : Fin 64) (o : Fin 1024) :
    FloatOps.matmul dot_S64x256_S1024x256_S64x1024_1_1_0_0_n_n none xg qf (constant (F := Ideal) S64x1024 .f32 0x00000000#32) (ix2 b o)
      = ∑ k : Fin 256, xg (ix2 b k) * qf (ix2 o k) := by
  rw [Ideal.matmul_constant_zero_apply, ← Equiv.sum_comp (ValueIdx.contrEquiv1 dot_S64x256_S1024x256_S64x1024_1_1_0_0_n_n 256 rfl rfl).symm]
  refine Finset.sum_congr rfl fun k _ => ?_
  have hk := ValueIdx.contrEquiv1_symm_val dot_S64x256_S1024x256_S64x1024_1_1_0_0_n_n 256 rfl rfl k
  have el : dot_S64x256_S1024x256_S64x1024_1_1_0_0_n_n.lhsIdx (ix2 b o) ((ValueIdx.contrEquiv1 dot_S64x256_S1024x256_S64x1024_1_1_0_0_n_n 256 rfl rfl).symm k) = ix2 b k := funext fun a => Fin.ext (by
    match a with
    | ⟨0, _⟩ => exact lhs_axis0 _ _
    | ⟨1, _⟩ => exact (lhs_axis1 _ _).trans hk)
  have er : dot_S64x256_S1024x256_S64x1024_1_1_0_0_n_n.rhsIdx (ix2 b o) ((ValueIdx.contrEquiv1 dot_S64x256_S1024x256_S64x1024_1_1_0_0_n_n 256 rfl rfl).symm k) = ix2 o k := funext fun a => Fin.ext (by
    match a with
    | ⟨0, _⟩ => exact rhs_axis0 _ _
    | ⟨1, _⟩ => exact (rhs_axis1 _ _).trans hk)
  rw [el, er]

/-- The sum of a 64 × 256 piece along its columns, at row b. -/
theorem laneSum_at (xf : FVec Ideal S64x256 .f32) (hφ : FKind.Formats .f32)
    (hacc : (0x00000000#32 : BitVec 32) = FKind.add.neutral .f32 hφ) (b : Fin 64) :
    multiReduction .add [1] S64 xf 0x00000000#32 reduces_S64x256_S64 hφ hacc (ix1 b) = ∑ k : Fin 256, xf (ix2 b k) := by
  refine (Ideal.multiReduction_add_single xf 0x00000000#32 reduces_S64x256_S64 hφ hacc (ix1 b)).trans ?_
  refine Finset.sum_congr rfl fun k _ => congrArg xf (funext fun a => Fin.ext ?_)
  match a with
  | ⟨0, _⟩ => rfl
  | ⟨1, _⟩ => rfl

/-! ## A column of 64 entries: its unit axis added, then spread over 1024 lanes -/

/-- A length-64 vector viewed as a 64 × 1 column reads, at (b, 0), the vector at b. -/
theorem column_at (v : S64.Idx → EReal) (h : S64.ShapeCasts S64x1) (b : Fin 64) (u : Fin 1) :
    shapeCast S64x1 v h (ix2 b u) = v (ix1 b) :=
  shapeCast_apply v h _ _ (by
    have hu : u.val = 0 := by omega
    rw [Shape.rowMajor_val_one, Shape.rowMajor_val_two]
    show b.val = b.val * 1 + u.val
    omega)

/-- A 64 × 1 column spread over 1024 lanes reads, at (b, o), the column at (b, 0). -/
theorem spread_at (v : S64x1.Idx → EReal) (h : S64x1.Broadcasts S64x1024) (b : Fin 64) (o : Fin 1024) :
    broadcastTo S64x1024 v h (ix2 b o) = v (ix2 b (0 : Fin 1)) := by
  refine broadcastTo_apply v h (ix2 b o) (ix2 b (0 : Fin 1)) fun ax => ?_
  match ax with
  | ⟨0, _⟩ => rfl
  | ⟨1, _⟩ => rfl

end Cert.KernelIdeal.Group

end
-- ==== Proof.Payload.lean ====
/-
  The kernel body's named values, read at an output entry (b, o).

  The body accumulates sixteen quantization groups into one 64 × 1024 value. Writing, for a group's loaded
  pieces x (64 × 256 activations), q (1024 × 256 integer codes), r and m (1 × 1024 rows of scales and offsets),
      dot x q b o = ∑ k, x (b, k) * (q (o, k) : ℝ)        sum x b = ∑ k, x (b, k),
  each named value of the body is, at (b, o), the running value plus products of these with the rows at lane o.
-/
import proofs.«418939_j17540646437707_3_alg».proof.Proof.Group

noncomputable section

namespace Cert.KernelIdeal.Group

open Cert.KernelIdeal Cert.KernelIdeal.Gen Idealize.ShloMosaic Idealize.ShloMosaic.ValueIdx

/-- The dot product of row b of the activations' piece with row o of the codes' piece. -/
def dotAt (xg : FVec Ideal S64x256 .bf16) (qg : IVec S1024x256 32) (b : Fin 64) (o : Fin 1024) : EReal :=
  ∑ k : Fin 256, xg (ix2 b k) * (((qg (ix2 o k)).toInt : ℝ) : EReal)

/-- The sum of row b of the activations' piece. -/
def sumAt (xg : FVec Ideal S64x256 .bf16) (b : Fin 64) : EReal := ∑ k : Fin 256, xg (ix2 b k)

/-- The group's matrix product at (b, o): the codes converted to floats, both pieces in their own shape. -/
theorem dot_piece (xg : FVec Ideal S64x256 .bf16) (qg : IVec S1024x256 32) (h1 : S64x256.ShapeCasts S64x256)
    (h2 : FTy.bits .bf16 < FTy.bits .f32) (b : Fin 64) (o : Fin 1024) :
    matmul dot_S64x256_S1024x256_S64x1024_1_1_0_0_n_n none (shapeCast S64x256 xg h1) (truncf .bf16 (sitofp (F := Ideal) .f32 qg) h2)
        (constant (F := Ideal) S64x1024 .f32 0x00000000#32) (ix2 b o) = dotAt xg qg b o := by
  refine (matmul_at _ _ b o).trans ?_
  refine Finset.sum_congr rfl fun k _ => ?_
  rw [shapeCast_self]
  rfl

/-- The group's lane sum, kept as a column and spread over the lanes, at (b, o). -/
theorem sum_piece (xg : FVec Ideal S64x256 .bf16) (h1 : S64x256.ShapeCasts S64x256) (h2 : FTy.bits .bf16 < FTy.bits .f32)
    (h3 : S64.ShapeCasts S64x1) (h4 : S64x1.Broadcasts S64x1024)
    (hacc : (0x00000000#32 : BitVec 32) = 0x00000000#32) (b : Fin 64) (o : Fin 1024) :
    broadcastTo S64x1024 (shapeCast S64x1 (multiReduction .add [1] S64 (extf (F := Ideal) .f32 (shapeCast S64x256 xg h1) h2)
        0x00000000#32 reduces_S64x256_S64 (.inl rfl) hacc) h3) h4 (ix2 b o) = sumAt xg b := by
  refine (spread_at _ _ b o).trans ?_
  refine (column_at _ _ b 0).trans ?_
  refine (laneSum_at _ _ _ b).trans ?_
  refine Finset.sum_congr rfl fun k _ => ?_
  rw [shapeCast_self]
  rfl

/-- A loaded 1 × 1024 row spread over the 64 rows, at (b, o). -/
theorem row_piece (rg : FVec Ideal S1x1024 .f32) (h1 : S1x1024.ShapeCasts S1x1024) (h2 : S1x1024.Broadcasts S64x1024)
    (b : Fin 64) (o : Fin 1024) :
    broadcastTo S64x1024 (shapeCast S1x1024 rg h1) h2 (ix2 b o) = rg (ix2 (0 : Fin 1) o) := by
  refine (broadcastTo_1b_ab_apply _ h2 b o).trans ?_
  rw [shapeCast_self]

/-! ## The named values -/

/-- The first named value: group 0 accumulated from zero, then group 1's scaled product. -/
theorem pay4_at (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay4 (F := Ideal) xa qa ra ma xb qb rb (ix2 b o)
      = ((0 + dotAt xa qa b o * ra (ix2 (0 : Fin 1) o)) + sumAt xa b * ma (ix2 (0 : Fin 1) o))
          + dotAt xb qb b o * rb (ix2 (0 : Fin 1) o) := by
  unfold k0_pay4 k0_pay2
  refine congrArg₂ (· + ·) (congrArg₂ (· + ·) (congrArg₂ (· + ·) ?_ (congrArg₂ (· * ·) ?_ ?_))
    (congrArg₂ (· * ·) ?_ ?_)) (congrArg₂ (· * ·) ?_ ?_)
  · exact Ideal.ofBits_zero_f32
  · exact dot_piece xa qa _ _ b o
  · exact row_piece ra _ _ b o
  · exact sum_piece xa _ _ _ _ _ b o
  · exact row_piece ma _ _ b o
  · exact dot_piece xb qb _ _ b o
  · exact row_piece rb _ _ b o

theorem pay8_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay8 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay8 k0_pay6
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay12_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay12 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay12 k0_pay10
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay16_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay16 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay16 k0_pay14
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay20_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay20 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay20 k0_pay18
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay24_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay24 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay24 k0_pay22
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay28_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay28 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay28 k0_pay26
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

theorem pay32_at (mp : FVec Ideal S1x1024 .f32) (acc sp : FVec Ideal S64x1024 .f32)
    (xa : FVec Ideal S64x256 .bf16) (qa : IVec S1024x256 32) (ra ma : FVec Ideal S1x1024 .f32)
    (xb : FVec Ideal S64x256 .bf16) (qb : IVec S1024x256 32) (rb : FVec Ideal S1x1024 .f32) (b : Fin 64) (o : Fin 1024) :
    k0_pay32 (F := Ideal) mp acc sp xa qa ra ma xb qb rb (ix2 b o)
      = (((acc (ix2 b o) + sp (ix2 b o) * mp (ix2 (0 : Fin 1) o)) + dotAt xa qa b o * ra (ix2 (0 : Fin 1) o))
          + sumAt xa b * ma (ix2 (0 : Fin 1) o)) + dotAt xb qb b o * rb (ix2 (0 : Fin 1) o) := by
  unfold k0_pay32 k0_pay30
  refine congrArg₂ (· + ·) (congrArg₂ (· + ·) (congrArg₂ (· + ·) (congrArg₂ (· + ·) rfl (congrArg₂ (· * ·) rfl ?_))
    (congrArg₂ (· * ·) ?_ ?_)) (congrArg₂ (· * ·) ?_ ?_)) (congrArg₂ (· * ·) ?_ ?_)
  · exact broadcastTo_1b_ab_apply mp _ b o
  · exact dot_piece xa qa _ _ b o
  · exact row_piece ra _ _ b o
  · exact sum_piece xa _ _ _ _ _ b o
  · exact row_piece ma _ _ b o
  · exact dot_piece xb qb _ _ b o
  · exact row_piece rb _ _ b o

/-- The last named value: the last group's offset term added. -/
theorem pay1_at (mp : FVec Ideal S1x1024 .f32) (acc sp : FVec Ideal S64x1024 .f32) (b : Fin 64) (o : Fin 1024) :
    k0_pay1 (F := Ideal) mp acc sp (ix2 b o) = acc (ix2 b o) + sp (ix2 b o) * mp (ix2 (0 : Fin 1) o) := by
  unfold k0_pay1
  refine congrArg₂ (· + ·) rfl (congrArg₂ (· * ·) rfl ?_)
  exact broadcastTo_1b_ab_apply mp _ b o

theorem pay5_at (xg : FVec Ideal S64x256 .bf16) (b : Fin 64) (o : Fin 1024) :
    k0_pay5 (F := Ideal) xg (ix2 b o) = sumAt xg b := by
  unfold k0_pay5 k0_pay2
  exact sum_piece xg _ _ _ _ _ b o

theorem pay9_at (xg : FVec Ideal S64x256 .bf16) (b : Fin 64) (o : Fin 1024) :
    k0_pay9 (F := Ideal) xg (ix2 b o) = sumAt xg b := by
  unfold k0_pay9 k0_pay6
  exact sum_piece xg _ _ _ _ _ b o

theorem pay13_at (xg : FVec Ideal S64x256 .bf16) (b : Fin 64) (o : Fin 1024) :
    k0_pay13 (F := Ideal) xg (ix2 b o) = sumAt xg b := by
  unfold k0_pay13 k0_pay10
  exact sum_piece xg _ _ _ _ _ b o

theorem pay17_at (xg : FVec Ideal S64x256 .bf16) (b : Fin 64) (o : Fin 1024) :
    k0_pay17 (F := Ideal) xg (ix2 b o) = sumAt xg b := by
  unfold k0_pay17 k0_pay14
  exact sum_piece xg _ _ _ _ _ b o

theorem pay21_at (xg : FVec Ideal S64x256 .bf16) (b : Fin 64) (o : Fin 1024) :
    k0_pay21 (F := Ideal) xg (ix2 b o) = sumAt xg b := by
  unfold k0_pay21 k0_pay18
  exact sum_piece xg _ _ _ _ _ b o

theorem pay25_at (xg : FVec Ideal S64x256 .bf16) (b : Fin 64) (o : Fin 1024) :
    k0_pay25 (F := Ideal) xg (ix2 b o) = sumAt xg b := by
  unfold k0_pay25 k0_pay22
  exact sum_piece xg _ _ _ _ _ b o

theorem pay29_at (xg : FVec Ideal S64x256 .bf16) (b : Fin 64) (o : Fin 1024) :
    k0_pay29 (F := Ideal) xg (ix2 b o) = sumAt xg b := by
  unfold k0_pay29 k0_pay26
  exact sum_piece xg _ _ _ _ _ b o

theorem pay33_at (xg : FVec Ideal S64x256 .bf16) (b : Fin 64) (o : Fin 1024) :
    k0_pay33 (F := Ideal) xg (ix2 b o) = sumAt xg b := by
  unfold k0_pay33 k0_pay30
  exact sum_piece xg _ _ _ _ _ b o

theorem pay3_eq (v : FVec Ideal S1x1024 .f32) : k0_pay3 (F := Ideal) v = v := shapeCast_self v _

theorem pay7_eq (v : FVec Ideal S1x1024 .f32) : k0_pay7 (F := Ideal) v = v := shapeCast_self v _

theorem pay11_eq (v : FVec Ideal S1x1024 .f32) : k0_pay11 (F := Ideal) v = v := shapeCast_self v _

theorem pay15_eq (v : FVec Ideal S1x1024 .f32) : k0_pay15 (F := Ideal) v = v := shapeCast_self v _

theorem pay19_eq (v : FVec Ideal S1x1024 .f32) : k0_pay19 (F := Ideal) v = v := shapeCast_self v _

theorem pay23_eq (v : FVec Ideal S1x1024 .f32) : k0_pay23 (F := Ideal) v = v := shapeCast_self v _

theorem pay27_eq (v : FVec Ideal S1x1024 .f32) : k0_pay27 (F := Ideal) v = v := shapeCast_self v _

theorem pay31_eq (v : FVec Ideal S1x1024 .f32) : k0_pay31 (F := Ideal) v = v := shapeCast_self v _

end Cert.KernelIdeal.Group

end
-- ==== Proof.BlockValue.lean ====
/-
  The output block of one grid point, entry by entry.

  The body loads, for each of the sixteen quantization groups g, columns 256 g … 256 g + 255 of the 64 × 4096
  block of activations and of the 1024 × 4096 block of integer codes, and row g of the 16 × 1024 blocks of
  scales and offsets, and stores the accumulated value once. So entry (b, o) of what it stores is the grouped
  sum (see GroupSum) of row b of the activations' block against row o of the codes' block, with the scales
  and offsets of lane o.
-/
import proofs.«418939_j17540646437707_3_alg».proof.Proof.Gen.KernelIdeal.Frame
import proofs.«418939_j17540646437707_3_alg».proof.Proof.Payload
import proofs.«418939_j17540646437707_3_alg».proof.Proof.GroupSum
import Idealize.ShloMosaic.Lib.Pipeline.Value

set_option maxRecDepth 16384

noncomputable section

namespace Cert.KernelIdeal.Group

open Cert.KernelIdeal Cert.KernelIdeal.Gen Idealize.ShloMosaic Idealize.ShloMosaic.ValueIdx Cert.Proof.GroupSum

/-- Row b of a 64 × 4096 block of activations. -/
def xrow (X0 : Vec Ideal S64x4096 .bf16) (b : Fin 64) : Fin 4096 → EReal := fun i => X0 (ix2 b i)
/-- Row o of a block of integer codes with 4096 columns, each code read as the real number it is. -/
def qrow {n : Nat} (X1 : IVec ⟨2, ![n, 4096]⟩ 32) (o : Fin n) : Fin 4096 → EReal := fun i => (((X1 (ix2 o i)).toInt : ℝ) : EReal)
/-- Lane o of a table with one row per group. -/
def lane {n : Nat} (X2 : FVec Ideal ⟨2, ![16, n]⟩ .f32) (o : Fin n) : Fin 16 → EReal := fun g => X2 (ix2 g o)

/-- The dot product over a group's loaded pieces is the group's dot product of the two rows. -/
theorem dotAt_ld (X0 : Vec Ideal S64x4096 .bf16) (X1 : Vec Ideal S1024x4096 .i32) (b : Fin 64) (o : Fin 1024)
    (g : Fin 16) (off : Nat) (hoff : off = 256 * g.val)
    (inb0 : ∀ a, (![0, off] : Fin 2 → Nat) a + S64x256.size a ≤ S64x4096.size a)
    (inb1 : ∀ a, (![0, off] : Fin 2 → Nat) a + S1024x256.size a ≤ S1024x4096.size a) :
    dotAt (View.ld (Val := Elt Ideal) X0 (Rect.unit (s := S64x4096) ![0, off] S64x256.size inb0))
        (View.ld (Val := Elt Ideal) X1 (Rect.unit (s := S1024x4096) ![0, off] S1024x256.size inb1)) b o
      = dotG (xrow X0 b) (qrow X1 o) g := by
  subst hoff
  unfold dotAt dotG xrow qrow
  refine Finset.sum_congr rfl fun k _ => ?_
  have e0 : (Rect.unit (s := S64x4096) ![0, 256 * g.val] S64x256.size inb0).idx (ix2 b k) = ix2 b (col g k) :=
    funext fun a => Fin.ext (by
      match a with
      | ⟨0, _⟩ => show 0 + 1 * b.val = b.val; omega
      | ⟨1, _⟩ => show 256 * g.val + 1 * k.val = 256 * g.val + k.val; omega)
  have e1 : (Rect.unit (s := S1024x4096) ![0, 256 * g.val] S1024x256.size inb1).idx (ix2 o k) = ix2 o (col g k) :=
    funext fun a => Fin.ext (by
      match a with
      | ⟨0, _⟩ => show 0 + 1 * o.val = o.val; omega
      | ⟨1, _⟩ => show 256 * g.val + 1 * k.val = 256 * g.val + k.val; omega)
  show X0 _ * (((X1 _).toInt : ℝ) : EReal) = _
  rw [e0, e1]

/-- The sum over a group's loaded piece is the group's sum of the row. -/
theorem sumAt_ld (X0 : Vec Ideal S64x4096 .bf16) (b : Fin 64) (g : Fin 16) (off : Nat) (hoff : off = 256 * g.val)
    (inb0 : ∀ a, (![0, off] : Fin 2 → Nat) a + S64x256.size a ≤ S64x4096.size a) :
    sumAt (View.ld (Val := Elt Ideal) X0 (Rect.unit (s := S64x4096) ![0, off] S64x256.size inb0)) b = sumG (xrow X0 b) g := by
  subst hoff
  unfold sumAt sumG xrow
  refine Finset.sum_congr rfl fun k _ => ?_
  have e0 : (Rect.unit (s := S64x4096) ![0, 256 * g.val] S64x256.size inb0).idx (ix2 b k) = ix2 b (col g k) :=
    funext fun a => Fin.ext (by
      match a with
      | ⟨0, _⟩ => show 0 + 1 * b.val = b.val; omega
      | ⟨1, _⟩ => show 256 * g.val + 1 * k.val = 256 * g.val + k.val; omega)
  show X0 _ = _
  rw [e0]

/-- A loaded row of a per-group table, at lane o, is the table's lane o at that group. -/
theorem row_ld (X2 : Vec Ideal S16x1024 .f32) (o : Fin 1024) (g : Fin 16) (gi : Nat) (hg : gi = g.val)
    (inb : ∀ a, (![gi, 0] : Fin 2 → Nat) a + S1x1024.size a ≤ S16x1024.size a) :
    View.ld (Val := Elt Ideal) X2 (Rect.unit (s := S16x1024) ![gi, 0] S1x1024.size inb) (ix2 (0 : Fin 1) o) = lane X2 o g := by
  subst hg
  unfold lane
  show X2 _ = _
  refine congrArg X2 (funext fun a => Fin.ext ?_)
  match a with
  | ⟨0, _⟩ => show g.val + 1 * 0 = g.val; omega
  | ⟨1, _⟩ => show 0 + 1 * o.val = o.val; omega

/-- One more group on both sides. -/
theorem step_congr {P P' S S' r r' m m' a a' : EReal} (hP : P = P') (hS : S = S') (hr : r = r') (hm : m = m') (ha : a = a') :
    (a + P * r) + S * m = step P' S' r' m' a' := by
  subst hP hS hr hm ha; rfl

theorem zero_offsets : (![0, 0] : Fin 2 → Nat) = fun _ => 0 := funext fun a => by fin_cases a <;> rfl

/-- Entry (b, o) of the block the body stores is the grouped sum of row b of the activations' block and row o of the
    codes' block with lane o of the scales and of the offsets. -/
theorem block_at (X0 : Vec Ideal S64x4096 .bf16) (X1 : Vec Ideal S1024x4096 .i32) (X2 X3 : Vec Ideal S16x1024 .f32)
    (b : Fin 64) (o : Fin 1024) :
    out0_4 (F := Ideal) X0 X1 X2 X3 (ix2 b o) = groupedSum (xrow X0 b) (qrow X1 o) (lane X2 o) (lane X3 o) := by
  unfold out0_4
  rw [View.canon_unit_zero zero_offsets]
  rw [pay1_at, pay32_at, pay28_at, pay24_at, pay20_at, pay16_at, pay12_at, pay8_at, pay4_at]
  simp only [pay33_at, pay29_at, pay25_at, pay21_at, pay17_at, pay13_at, pay9_at, pay5_at,
    pay31_eq, pay27_eq, pay23_eq, pay19_eq, pay15_eq, pay11_eq, pay7_eq, pay3_eq]
  simp only [groupedSum, groups, List.foldl_cons, List.foldl_nil]
  refine step_congr (dotAt_ld X0 X1 b o 15 3840 rfl _ _) (sumAt_ld X0 b 15 3840 rfl _) (row_ld X2 o 15 15 rfl _) (row_ld X3 o 15 15 rfl _) ?_
  refine step_congr (dotAt_ld X0 X1 b o 14 3584 rfl _ _) (sumAt_ld X0 b 14 3584 rfl _) (row_ld X2 o 14 14 rfl _) (row_ld X3 o 14 14 rfl _) ?_
  refine step_congr (dotAt_ld X0 X1 b o 13 3328 rfl _ _) (sumAt_ld X0 b 13 3328 rfl _) (row_ld X2 o 13 13 rfl _) (row_ld X3 o 13 13 rfl _) ?_
  refine step_congr (dotAt_ld X0 X1 b o 12 3072 rfl _ _) (sumAt_ld X0 b 12 3072 rfl _) (row_ld X2 o 12 12 rfl _) (row_ld X3 o 12 12 rfl _) ?_
  refine step_congr (dotAt_ld X0 X1 b o 11 2816 rfl _ _) (sumAt_ld X0 b 11 2816 rfl _) (row_ld X2 o 11 11 rfl _) (row_ld X3 o 11 11 rfl _) ?_
  refine step_congr (dotAt_ld X0 X1 b o 10 2560 rfl _ _) (sumAt_ld X0 b 10 2560 rfl _) (row_ld X2 o 10 10 rfl _) (row_ld X3 o 10 10 rfl _) ?_
  refine step_congr (dotAt_ld X0 X1 b o 9 2304 rfl _ _) (sumAt_ld X0 b 9 2304 rfl _) (row_ld X2 o 9 9 rfl _) (row_ld X3 o 9 9 rfl _) ?_
  refine step_congr (dotAt_ld X0 X1 b o 8 2048 rfl _ _) (sumAt_ld X0 b 8 2048 rfl _) (row_ld X2 o 8 8 rfl _) (row_ld X3 o 8 8 rfl _) ?_
  refine step_congr (dotAt_ld X0 X1 b o 7 1792 rfl _ _) (sumAt_ld X0 b 7 1792 rfl _) (row_ld X2 o 7 7 rfl _) (row_ld X3 o 7 7 rfl _) ?_
  refine step_congr (dotAt_ld X0 X1 b o 6 1536 rfl _ _) (sumAt_ld X0 b 6 1536 rfl _) (row_ld X2 o 6 6 rfl _) (row_ld X3 o 6 6 rfl _) ?_
  refine step_congr (dotAt_ld X0 X1 b o 5 1280 rfl _ _) (sumAt_ld X0 b 5 1280 rfl _) (row_ld X2 o 5 5 rfl _) (row_ld X3 o 5 5 rfl _) ?_
  refine step_congr (dotAt_ld X0 X1 b o 4 1024 rfl _ _) (sumAt_ld X0 b 4 1024 rfl _) (row_ld X2 o 4 4 rfl _) (row_ld X3 o 4 4 rfl _) ?_
  refine step_congr (dotAt_ld X0 X1 b o 3 768 rfl _ _) (sumAt_ld X0 b 3 768 rfl _) (row_ld X2 o 3 3 rfl _) (row_ld X3 o 3 3 rfl _) ?_
  refine step_congr (dotAt_ld X0 X1 b o 2 512 rfl _ _) (sumAt_ld X0 b 2 512 rfl _) (row_ld X2 o 2 2 rfl _) (row_ld X3 o 2 2 rfl _) ?_
  refine step_congr (dotAt_ld X0 X1 b o 1 256 rfl _ _) (sumAt_ld X0 b 1 256 rfl _) (row_ld X2 o 1 1 rfl _) (row_ld X3 o 1 1 rfl _) ?_
  refine step_congr (dotAt_ld X0 X1 b o 0 0 rfl _ _) (sumAt_ld X0 b 0 0 rfl _) (row_ld X2 o 0 0 rfl _) (row_ld X3 o 0 0 rfl _) ?_
  rfl

end Cert.KernelIdeal.Group

end
-- ==== Proof.ArrayValue.lean ====
/-
  From the blocks to the 64 × 8192 array the kernel writes.

  Grid point t stages the whole 64 × 4096 activations, rows 1024 t … 1024 t + 1023 of the codes, and lanes
  1024 t … 1024 t + 1023 of the transposed scales and offsets, and writes back lanes 1024 t … of the output. An entry
  (b, o) of the output therefore lies in the block of exactly the point o / 1024, and what that point writes there is
  the grouped sum of row b of the activations and row o of the codes with lane o of the scales and offsets — one
  function of the whole arrays, so the eight blocks tile the array with it.
-/
import proofs.«418939_j17540646437707_3_alg».proof.Proof.BlockValue

set_option maxRecDepth 16384

noncomputable section

namespace Cert.KernelIdeal.ArrayValue

open Cert.KernelIdeal Cert.KernelIdeal.Gen Cert.KernelIdeal.Group Idealize.ShloMosaic Idealize.ShloMosaic.ValueIdx
open Idealize.ShloMosaic.TcCoe Idealize.SL.Sem Cert.Proof.GroupSum
open Idealize.ShloMosaic.Pipeline (Dat)

variable (m : (ℓ : Loc nD τ sig) → Buf (Elt Ideal) ℓ) (ρ : Dev nD → PrngReg)

/-- The output array as one function of the arrays the region finds: entry (b, o) is the grouped sum of row b of the
    activations and row o of the codes with lane o of the transposed scales and offsets. -/
def outArr (A0 : Vec Ideal S64x4096 .bf16) (A1 : Vec Ideal S8192x4096 .i32) (A2 A3 : Vec Ideal S16x8192 .f32) :
    Vec Ideal S64x8192 .f32 :=
  fun i => groupedSum (xrow A0 ⟨(i 0).val, (i 0).isLt⟩) (qrow A1 ⟨(i 1).val, (i 1).isLt⟩)
    (lane A2 ⟨(i 1).val, (i 1).isLt⟩) (lane A3 ⟨(i 1).val, (i 1).isLt⟩)

/-- The printed index maps over the grid: the activations' block never moves; the codes' rows and the lanes of the
    scales, offsets and output move with the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The same at an index of the block given whole. -/
theorem block_at_idx (X0 : Vec Ideal S64x4096 .bf16) (X1 : Vec Ideal S1024x4096 .i32) (X2 X3 : Vec Ideal S16x1024 .f32)
    (y : S64x1024.Idx) :
    out0_4 (F := Ideal) X0 X1 X2 X3 y = groupedSum (xrow X0 ⟨(y 0).val, (y 0).isLt⟩) (qrow X1 ⟨(y 1).val, (y 1).isLt⟩)
      (lane X2 ⟨(y 1).val, (y 1).isLt⟩) (lane X3 ⟨(y 1).val, (y 1).isLt⟩) := by
  have hy : y = ix2 (⟨(y 0).val, (y 0).isLt⟩ : Fin 64) (⟨(y 1).val, (y 1).isLt⟩ : Fin 1024) := funext fun a => Fin.ext (by
    match a with
    | ⟨0, _⟩ => rfl
    | ⟨1, _⟩ => rfl)
  exact (congrArg (out0_4 (F := Ideal) X0 X1 X2 X3) hy).trans (block_at X0 X1 X2 X3 _ _)

/-- Reading an array through the output window's block at point t: the array at the block's index placed in it. -/
theorem read_out_blk (G : Vec Ideal S64x8192 .f32) (t : Fin cfg0.N) (j : ((cfg0.win 4).xblock (grid0.coords t)).Idx) :
    View.read (Elt Ideal) ((cfg0.win 4).blk t).view G j = G (((cfg0.win 4).blk t).view.emb j) := rfl

/-- An input window's block at point t, read at an index: the array the region finds, at the index placed in it. -/
theorem in_blk0 (c : Dev nD) (t : Fin cfg0.N) (y : S64x4096.Idx) :
    iblk m c 0 t y = V m c main_v1 (((cfg0.win 0).blk t).view.emb y) := rfl
theorem in_blk1 (c : Dev nD) (t : Fin cfg0.N) (y : S1024x4096.Idx) :
    iblk m c 1 t y = V m c main_arg1 (((cfg0.win 1).blk t).view.emb y) := rfl
theorem in_blk2 (c : Dev nD) (t : Fin cfg0.N) (y : S16x1024.Idx) :
    iblk m c 2 t y = V m c main_v2 (((cfg0.win 2).blk t).view.emb y) := rfl
theorem in_blk3 (c : Dev nD) (t : Fin cfg0.N) (y : S16x1024.Idx) :
    iblk m c 3 t y = V m c main_v3 (((cfg0.win 3).blk t).view.emb y) := rfl

/-- What point t writes back is block t of `outArr` of the arrays as the region finds them. -/
theorem flushed_eq (c : Dev nD) (t : Fin cfg0.N) :
    (dats m 0 c).flushed 4 t = ((cfg0.win 4).blk t).view.read (Elt Ideal)
      (outArr (V m c main_v1) (V m c main_arg1) (V m c main_v2) (V m c main_v3)) := by
  show (cfg0.win 4).cut (grid0.coords t) ((dats m 0 c).after 4 t) = _
  rw [after0_4]
  obtain ⟨e00, e01, e10, e11, e20, e21, e30, e31, e40, e41⟩ := idx_facts t
  funext j
  refine (block_at_idx (iblk m c 0 t) (iblk m c 1 t) (iblk m c 2 t) (iblk m c 3 t) ((cfg0.win 4).xinj (grid0.coords t) j)).trans ?_
  refine Eq.trans ?_ (read_out_blk _ t j).symm
  unfold outArr
  have hj0 : (j 0).val < 64 := (j 0).isLt
  have hj1 : (j 1).val < 1024 := (j 1).isLt
  refine congr (congr (congr (congrArg groupedSum ?_) ?_) ?_) ?_
  · funext i
    unfold xrow
    refine (in_blk0 m c t _).trans (congrArg _ (funext fun a => Fin.ext ?_))
    match a with
    | ⟨0, _⟩ =>
      show win0_0.index t (0 : Fin 2) * 64 + 1 * (j 0).val = win0_4.index t (0 : Fin 2) * 64 + 1 * (j 0).val
      omega
    | ⟨1, _⟩ =>
      show win0_0.index t (1 : Fin 2) * 4096 + 1 * i.val = i.val
      omega
  · funext i
    unfold qrow
    refine congrArg (fun z : BitVec 32 => ((z.toInt : ℝ) : EReal)) ?_
    refine (in_blk1 m c t _).trans (congrArg _ (funext fun a => Fin.ext ?_))
    match a with
    | ⟨0, _⟩ =>
      show win0_1.index t (0 : Fin 2) * 1024 + 1 * (j 1).val = win0_4.index t (1 : Fin 2) * 1024 + 1 * (j 1).val
      omega
    | ⟨1, _⟩ =>
      show win0_1.index t (1 : Fin 2) * 4096 + 1 * i.val = i.val
      omega
  · funext g
    unfold lane
    refine (in_blk2 m c t _).trans (congrArg _ (funext fun a => Fin.ext ?_))
    match a with
    | ⟨0, _⟩ =>
      show win0_2.index t (0 : Fin 2) * 16 + 1 * g.val = g.val
      omega
    | ⟨1, _⟩ =>
      show win0_2.index t (1 : Fin 2) * 1024 + 1 * (j 1).val = win0_4.index t (1 : Fin 2) * 1024 + 1 * (j 1).val
      omega
  · funext g
    unfold lane
    refine (in_blk3 m c t _).trans (congrArg _ (funext fun a => Fin.ext ?_))
    match a with
    | ⟨0, _⟩ =>
      show win0_3.index t (0 : Fin 2) * 16 + 1 * g.val = g.val
      omega
    | ⟨1, _⟩ =>
      show win0_3.index t (1 : Fin 2) * 1024 + 1 * (j 1).val = win0_4.index t (1 : Fin 2) * 1024 + 1 * (j 1).val
      omega

/-- An index of the output array is in point t's block iff each coordinate is in the block's range on its axis. -/
theorem mem_blk (t : Fin cfg0.N) (i : S64x8192.Idx) :
    i ∈ ((cfg0.win 4).blk t).view.set ↔ ∀ a : Fin 2, win0_4.index t a * S64x1024.size a ≤ (i a).val
      ∧ (i a).val < win0_4.index t a * S64x1024.size a + S64x1024.size a := by
  show i ∈ ((View.whole main_v4).slice (win0_4.rect t)).set ↔ _
  rw [View.set_slice_whole, Rect.mem_set_unit]
  exact Iff.rfl

/-- Every entry of the output array is in the block of the point its lane divided by 1024 names. -/
theorem cover (i : S64x8192.Idx) :
    ∃ t : Fin cfg0.N, (cfg0.win 4).flush t = true ∧ i ∈ ((cfg0.win 4).blk t).view.set := by
  have hi0 : (i 0).val < 64 := (i 0).isLt
  have hi1 : (i 1).val < 8192 := (i 1).isLt
  have hlt : (i 1).val / 1024 < cfg0.N := by
    show (i 1).val / 1024 < grid0.N
    rw [N_0]; omega
  obtain ⟨-, -, -, -, -, -, -, -, e40, e41⟩ := idx_facts ⟨(i 1).val / 1024, hlt⟩
  refine ⟨⟨(i 1).val / 1024, hlt⟩, flush0_4 _, ?_⟩
  rw [mem_blk]
  intro a
  match a with
  | ⟨0, _⟩ =>
    show win0_4.index ⟨(i 1).val / 1024, hlt⟩ (0 : Fin 2) * 64 ≤ (i 0).val
      ∧ (i 0).val < win0_4.index ⟨(i 1).val / 1024, hlt⟩ (0 : Fin 2) * 64 + 64
    omega
  | ⟨1, _⟩ =>
    show win0_4.index ⟨(i 1).val / 1024, hlt⟩ (1 : Fin 2) * 1024 ≤ (i 1).val
      ∧ (i 1).val < win0_4.index ⟨(i 1).val / 1024, hlt⟩ (1 : Fin 2) * 1024 + 1024
    have e : (⟨(i 1).val / 1024, hlt⟩ : Fin cfg0.N).val = (i 1).val / 1024 := rfl
    omega

/-- The output array after the region: `outArr` of the arrays as the region finds them. -/
theorem final (c : Dev nD) :
    (dats m 0 c).arrAt 4 cfg0.N = outArr (V m c main_v1) (V m c main_arg1) (V m c main_v2) (V m c main_v3) :=
  (dats m 0 c).arrAt_eq_of_cover 4 _ (fun t _ => flushed_eq m c t) cover

end Cert.KernelIdeal.ArrayValue

end
-- ==== Proof.KernelValue.lean ====
/-
  The kernel's result as a function of its four arguments.

  Before the region the program folds the activations to 64 × 4096 (the format change is the identity on extended
  reals) and transposes the tables of scales and offsets; after it, it gives the 64 × 8192 output its leading unit
  axis back. Reading these at an index, entry (0, b, o) of the result is the grouped sum of row b of the activations
  and row o of the codes with row o of the scales and offsets; when the float inputs are real numbers that is the
  dequantized dot product the reference computes (GroupSum).
-/
import proofs.«418939_j17540646437707_3_alg».proof.Proof.ArrayValue
import proofs.«418939_j17540646437707_3_alg».proof.Proof.RefValue
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.KernelIdeal.Group Cert.KernelIdeal.ArrayValue
open Idealize.ShloMosaic Idealize.ShloMosaic.ValueIdx Idealize.ShloMosaic.TcCoe Idealize.SL.Sem Idealize.ShloMosaic.StableHlo
open Cert.Proof.GroupSum
open Idealize.ShloMosaic.Pipeline (Dat)

variable (m : (ℓ : Loc nD τ sig) → Buf (Elt Ideal) ℓ) (ρ : Dev nD → PrngReg)

/-! ## The arrays the region finds -/

/-- The activations as the region finds them: folded to 64 × 4096. -/
theorem V_main_v1 (c : Dev nD) : V m c main_v1
    = truncf (F := Ideal) .bf16 (shapeCast S64x4096 (m ((c : Thread nD τ).loc main_arg0)) shapeCasts_S1x64x4096_S64x4096) bitsLt_bf16_f32 := by
  show StableHlo.after hostOps0 (fun b => m (c, b)) (Proc.devRef .tc main_v1) = _
  after_results
  rfl

/-- The scales as the region finds them: transposed. -/
theorem V_main_v2 (c : Dev nD) : V m c main_v2
    = transpose S16x8192 [1, 0] (m ((c : Thread nD τ).loc main_arg2)) transposes_S8192x16_S16x8192_1_0 := by
  show StableHlo.after hostOps0 (fun b => m (c, b)) (Proc.devRef .tc main_v2) = _
  after_results

/-- The offsets as the region finds them: transposed. -/
theorem V_main_v3 (c : Dev nD) : V m c main_v3
    = transpose S16x8192 [1, 0] (m ((c : Thread nD τ).loc main_arg3)) transposes_S8192x16_S16x8192_1_0 := by
  show StableHlo.after hostOps0 (fun b => m (c, b)) (Proc.devRef .tc main_v3) = _
  after_results

/-- Row b of the folded activations is row (0, b) of the argument. -/
theorem xrow_V (c : Dev nD) (b : Fin 64) :
    xrow (V m c main_v1) b = fun k => (m ((c : Thread nD τ).loc main_arg0)) (ix3 (0 : Fin 1) b k) := by
  funext k
  unfold xrow
  rw [V_main_v1]
  exact shapeCast_1ab_ab_apply _ _ b k

/-- Row o of the codes the region finds is row o of the argument. -/
theorem qrow_V (c : Dev nD) (o : Fin 8192) :
    qrow (V m c main_arg1) o = fun k => (((((m ((c : Thread nD τ).loc main_arg1)) (ix2 o k)).toInt : ℝ)) : EReal) := by
  funext k
  unfold qrow
  rw [V_main_arg1]

/-- Lane o of the transposed scales is row o of the argument. -/
theorem lane_V2 (c : Dev nD) (o : Fin 8192) :
    lane (V m c main_v2) o = fun g => (m ((c : Thread nD τ).loc main_arg2)) (ix2 o g) := by
  funext g
  unfold lane
  rw [V_main_v2]
  exact transpose_ix2_apply _ _ g o

/-- Lane o of the transposed offsets is row o of the argument. -/
theorem lane_V3 (c : Dev nD) (o : Fin 8192) :
    lane (V m c main_v3) o = fun g => (m ((c : Thread nD τ).loc main_arg3)) (ix2 o g) := by
  funext g
  unfold lane
  rw [V_main_v3]
  exact transpose_ix2_apply _ _ g o

/-! ## The result -/

/-- The result buffer after the lines that follow the region: the output array with its leading unit axis. -/
theorem tail_eq (c : Dev nD) :
    Pipeline.afterTail₀ cfgs (dats m) 0 (V0 m) [hostOps1] c main_v5
      = shapeCast S1x64x8192 ((dats m 0 c).arrAt 4 cfg0.N) shapeCasts_S64x8192_S1x64x8192 := by
  unfold Pipeline.afterTail₀
  show StableHlo.after hostOps1 _ (Proc.devRef .tc main_v5) = _
  after_results
  have hw := Pipeline.withArrays_arr spec0 launch0.win.arr_inj c (V0 m c) (fun w => (dats m 0 c).arrAt w cfg0.N) 4
  funext i
  show shapeCast S1x64x8192 (Pipeline.withArrays spec0 c (V0 m c) (fun w => (dats m 0 c).arrAt w cfg0.N)
    (Proc.devRef .tc (Pipeline.arrRef spec0 4))) shapeCasts_S64x8192_S1x64x8192 i = _
  rw [hw]

/-- When the three float arguments hold real numbers, the kernel's result is the reference's function of the arguments:
    entry by entry the grouped sum is the dequantized dot product. -/
theorem result_eq (c : Dev nD)
    (hx : ∀ i, ∃ a : ℝ, (m ((c : Thread nD τ).loc main_arg0)) i = (a : EReal))
    (hr : ∀ i, ∃ a : ℝ, (m ((c : Thread nD τ).loc main_arg2)) i = (a : EReal))
    (hm : ∀ i, ∃ a : ℝ, (m ((c : Thread nD τ).loc main_arg3)) i = (a : EReal)) :
    Pipeline.afterTail₀ cfgs (dats m) 0 (V0 m) [hostOps1] c main_v5
      = Cert.ReferenceIdeal.RefValue.dequant (m ((c : Thread nD τ).loc main_arg0)) (m ((c : Thread nD τ).loc main_arg1)) (m ((c : Thread nD τ).loc main_arg2)) (m ((c : Thread nD τ).loc main_arg3)) := by
  rw [tail_eq, final]
  funext i
  obtain ⟨u, b, o, rfl⟩ : ∃ (u : Fin 1) (b : Fin 64) (o : Fin 8192), i = ix3 u b o := ⟨i 0, i 1, i 2, eq_ix3 i⟩
  rw [shapeCast_ab_1ab_apply]
  show groupedSum (xrow (V m c main_v1) b) (qrow (V m c main_arg1) o) (lane (V m c main_v2) o) (lane (V m c main_v3) o)
    = dequantSum (fun k => (m ((c : Thread nD τ).loc main_arg0)) (ix3 (0 : Fin 1) b k))
        (fun k => (((((m ((c : Thread nD τ).loc main_arg1)) (ix2 o k)).toInt : ℝ)) : EReal))
        (fun g => (m ((c : Thread nD τ).loc main_arg2)) (ix2 o g)) (fun g => (m ((c : Thread nD τ).loc main_arg3)) (ix2 o g))
  rw [xrow_V, qrow_V, lane_V2, lane_V3]
  exact groupedSum_eq_dequantSum _ _ _ _ (fun k => hx _) (fun k => ⟨_, rfl⟩) (fun g => hr _) (fun g => hm _)

end Cert.KernelIdeal.KernelValue

end
-- ==== Proof.lean ====
/-
  A quantized matrix product against its dequantize-then-contract reference, over the extended reals.

  The kernel never forms the dequantized weights w (o, i) = q (o, i) · r (o, i / 256) + m (o, i / 256). For each of the
  16 groups of 256 columns it multiplies the activations' columns by the integer codes, scales the product by the group's
  row of r, and adds the group's sum of activations times the group's row of m, accumulating the sixteen groups from
  zero. The reference forms w and contracts it with the activations over all 4096 columns. The two agree entry by entry
  by distributivity, which on the extended reals holds because the precondition makes every float input a real number
  (the integer codes are real numbers as they are). Changes of float format are the identity at this instance, so the
  kernel's bf16 operands are the f32 values themselves.

  The three frames are the generated ones (the reference's is its run with the result dropped); the idealization
  rewrote nothing, so there is nothing to preserve beyond the program's own text.
-/
import proofs.«418939_j17540646437707_3_alg».proof.Defs
import proofs.«418939_j17540646437707_3_alg».proof.Proof.Gen.Kernel
import proofs.«418939_j17540646437707_3_alg».proof.Proof.Gen.Kernel.Skeleton
import proofs.«418939_j17540646437707_3_alg».proof.Proof.Gen.Kernel.Launch
import proofs.«418939_j17540646437707_3_alg».proof.Proof.Gen.Kernel.Points
import proofs.«418939_j17540646437707_3_alg».proof.Proof.Gen.Kernel.Frame
import proofs.«418939_j17540646437707_3_alg».proof.Proof.Gen.KernelIdeal
import proofs.«418939_j17540646437707_3_alg».proof.Proof.Gen.KernelIdeal.Skeleton
import proofs.«418939_j17540646437707_3_alg».proof.Proof.Gen.KernelIdeal.Launch
import proofs.«418939_j17540646437707_3_alg».proof.Proof.Gen.KernelIdeal.Points
import proofs.«418939_j17540646437707_3_alg».proof.Proof.Gen.KernelIdeal.Frame
import proofs.«418939_j17540646437707_3_alg».proof.Proof.Gen.ReferenceIdeal
import proofs.«418939_j17540646437707_3_alg».proof.Proof.Gen.Pre_finite_inputs
import proofs.«418939_j17540646437707_3_alg».proof.Proof.Gen.ReferenceIdeal.Run
import proofs.«418939_j17540646437707_3_alg».proof.Proof.Gen.ReferenceIdeal.Read
import proofs.«418939_j17540646437707_3_alg».proof.Proof.RealInputs
import proofs.«418939_j17540646437707_3_alg».proof.Proof.RefValue
import proofs.«418939_j17540646437707_3_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its generated run, the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end with the dequantized dot products of the arguments: the kernel by the regrouping law, which the
    real-valued inputs allow; the reference by reading its operations at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.dequant (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_main m ρ)
    obtain ⟨hx, hr, hm⟩ := Cert.Proof.RealInputs.reals_of_pre _ _ _ _ (hpre c)
    exact ⟨((h c).2 Cert.KernelIdeal.main_v5 (Pipeline.mem_restRefs_of Cert.KernelIdeal.main_v5 (by decide) (by decide))).trans
        (Cert.KernelIdeal.KernelValue.result_eq m c hx hr hm),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).1 1).trans (((Cert.KernelIdeal.Gen.dats m 0 c).arrAt_in 1 rfl _).trans
        ((Cert.KernelIdeal.Gen.A_eq m c 1).trans (Cert.KernelIdeal.Gen.V_main_arg1 m c))),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v9_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
